-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096x128 : Shape := ⟨2, ![4096, 128]⟩
abbrev S8192x128 : Shape := ⟨2, ![8192, 128]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S4096x8192 .f32) (main_arg1 : FVec F S4096x128 .f32) (main_arg2 : FVec F S8192x128 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S4096x8192 : Shape := ⟨2, ![4096, 8192]⟩
abbrev S4096x128 : Shape := ⟨2, ![4096, 128]⟩
abbrev S8192x128 : Shape := ⟨2, ![8192, 128]⟩
abbrev S2x8x128 : Shape := ⟨3, ![2, 8, 128]⟩
abbrev S256x8192 : Shape := ⟨2, ![256, 8192]⟩
abbrev S256x128 : Shape := ⟨2, ![256, 128]⟩
abbrev S1x8x128 : Shape := ⟨3, ![1, 8, 128]⟩
abbrev S1x8192 : Shape := ⟨2, ![1, 8192]⟩
abbrev S1x1 : Shape := ⟨2, ![1, 1]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S4096x128, .f32⟩
  | .hbm, ⟨2, _⟩ => ⟨S8192x128, .f32⟩
  | .hbm, ⟨3, _⟩ => ⟨S2x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x128, .f32⟩
  | .local _ .vmem, ⟨3, _⟩ => ⟨S256x128, .f32⟩
  | .local _ .vmem, ⟨4, _⟩ => ⟨S8192x128, .f32⟩
  | .local _ .vmem, ⟨5, _⟩ => ⟨S1x8x128, .f32⟩
  | .local _ .vmem, ⟨6, _⟩ => ⟨S1x8x128, .f32⟩
  | .local _ .vmem, ⟨7, _⟩ => ⟨S1x8192, .f32⟩
  | .local _ .vmem, ⟨8, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  transposes_S8192x1_p1_0_S1x8192 : S8192x1.Transposes [1, 0] S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x8192_S256x8192_0_0 : ∀ a, (![0, 0] : Fin 2 → Nat) a + S256x8192.size a ≤ S256x8192.size a
  h_S256x8192 : 0 < S256x8192.numel
  inb_S256x128_S256x128_0_0 : ∀ a, (![0, 0] : Fin 2 → Nat) a + S256x128.size a ≤ S256x128.size a
  h_S256x128 : 0 < S256x128.numel
  reduces_S256x8192_S256 : S256x8192.Reduces [1] S256
  shapeCasts_S256_S256x1 : S256.ShapeCasts S256x1
  reduces_S256x128_S256 : S256x128.Reduces [1] S256
  reduces_S256x1_S1 : S256x1.Reduces [0] S1
  shapeCasts_S1_S1x1 : S1.ShapeCasts S1x1
  broadcasts_S1x8192_S256x8192 : S1x8192.Broadcasts S256x8192
  bitsLt_bf16_f32 : FTy.bits .bf16 < FTy.bits .f32
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S2x8x128_S_d0_1_2 : S2x8x128.ReducesTo [0, 1, 2] S_
  h_S_ : 0 < S_.numel
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S4096x128 : Shape := ⟨2, ![4096, 128]⟩
abbrev S8192x128 : Shape := ⟨2, ![8192, 128]⟩
abbrev S_ : Shape := ⟨0, ![]⟩
abbrev S4096 : Shape := ⟨1, ![4096]⟩
abbrev S8192 : Shape := ⟨1, ![8192]⟩

abbrev nBuf : Space → Nat
  | .hbm => 29
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x128, .f32⟩
  | .hbm, ⟨2, _⟩ => ⟨S8192x128, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S8192, .f32⟩
  | .hbm, ⟨7, _⟩ => ⟨S4096x128, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  reducesTo_S4096x8192_S8192_d0 : S4096x8192.ReducesTo [0] S8192
  reducesTo_S4096x128_S4096_d1 : S4096x128.ReducesTo [1] S4096
  reducesTo_S4096_S_d0 : S4096.ReducesTo [0] S_
  reducesTo_S8192x128_S8192_d1 : S8192x128.ReducesTo [1] S8192
  reducesTo_S8192_S_d0 : S8192.ReducesTo [0] S_
  reducesTo_S4096x128_S_d0_1 : S4096x128.ReducesTo [0, 1] S_
  dot_S4096x8192_S8192x128_S4096x128_1_0_0_1_n_n_wf : DotDims.WF S4096x8192 S8192x128 S4096x128 [1] [0] [0] [1] [] []

variable [Facts₀]

def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf

class Facts : Prop extends Facts₀ where

variable [Facts]
-- ==== Proof.Spec.lean ====
/-
  The graph-smoothness loss, as mathematics. For a weight matrix `G` (4096 × 8192), features `X` (4096 × 128) of the
  rows and `Y` (8192 × 128) of the columns, the loss numerator is

      ∑ᵢ (∑ⱼ Gᵢⱼ)·‖Xᵢ‖²  +  ∑ⱼ (∑ᵢ Gᵢⱼ)·‖Yⱼ‖²  −  2·∑ᵢ Xᵢ·(G Y)ᵢ            (`refNum`)

  The tiled evaluation cuts the rows into 16 tiles of 256 (`row`), forms for each tile the same three sums restricted
  to its rows — the middle one as ∑ᵢ∑ⱼ Gᵢⱼ·‖Yⱼ‖², no column sum being available inside a tile — (`tileOf`, `tile`), and
  accumulates the tiles of each half (tiles 0–7, tiles 8–15) in order, the accumulator reset at the first tile of a
  half (`accAt`). Everything here is stated on the extended reals with the scalar `two` left abstract: the law that
  joins the two evaluations (Proof/SpecLaw.lean) needs only that every entry and `two` are real numbers.
-/
import Idealize.ShloMosaic.PureOps.Ideal

noncomputable section

open scoped BigOperators

namespace GraphLoss

/-- Row `a` of tile `r`: the matrix row `256 r + a`. -/
def row (r : Fin 16) (a : Fin 256) : Fin 4096 := ⟨256 * r.val + a.val, by have := r.isLt; have := a.isLt; omega⟩

/-- The squared norm of row `j` of `Y`. -/
def sqNorm (Y : Fin 8192 → Fin 128 → EReal) (j : Fin 8192) : EReal := ∑ d : Fin 128, Y j d * Y j d

/-- One tile's contribution from its 256 rows `g` of `G` and `x` of `X`:
    (∑ₐ deg(a)·‖xₐ‖² + ∑ₐ∑ⱼ gₐⱼ·‖Yⱼ‖²) − two·∑ₐ∑_d xₐd·(g Y)ₐd. -/
def tileOf (g : Fin 256 → Fin 8192 → EReal) (x : Fin 256 → Fin 128 → EReal) (Y : Fin 8192 → Fin 128 → EReal)
    (two : EReal) : EReal :=
  ((∑ a : Fin 256, (∑ j : Fin 8192, g a j) * (∑ d : Fin 128, x a d * x a d))
      + (∑ a : Fin 256, ∑ j : Fin 8192, g a j * sqNorm Y j))
    - two * (∑ a : Fin 256, ∑ d : Fin 128, x a d * (∑ j : Fin 8192, g a j * Y j d))

/-- Tile `r` of the whole matrices. -/
def tile (G : Fin 4096 → Fin 8192 → EReal) (X : Fin 4096 → Fin 128 → EReal) (Y : Fin 8192 → Fin 128 → EReal)
    (two : EReal) (r : Fin 16) : EReal :=
  tileOf (fun a j => G (row r a) j) (fun a d => X (row r a) d) Y two

/-- The running sum after tile `n`: restarted at tiles 0 and 8, otherwise the previous running sum plus the tile. -/
def accAt (G : Fin 4096 → Fin 8192 → EReal) (X : Fin 4096 → Fin 128 → EReal) (Y : Fin 8192 → Fin 128 → EReal)
    (two : EReal) : (n : ℕ) → n < 16 → EReal
  | 0, h => tile G X Y two ⟨0, h⟩
  | n + 1, h =>
    if (n + 1) % 8 = 0 then tile G X Y two ⟨n + 1, h⟩
    else accAt G X Y two n (Nat.lt_of_succ_lt h) + tile G X Y two ⟨n + 1, h⟩

/-- The loss numerator as the reference forms it. -/
def refNum (G : Fin 4096 → Fin 8192 → EReal) (X : Fin 4096 → Fin 128 → EReal) (Y : Fin 8192 → Fin 128 → EReal)
    (two : EReal) : EReal :=
  ((∑ i : Fin 4096, (∑ j : Fin 8192, G i j) * (∑ d : Fin 128, X i d * X i d))
      + (∑ j : Fin 8192, (∑ i : Fin 4096, G i j) * (∑ d : Fin 128, Y j d * Y j d)))
    - two * (∑ i : Fin 4096, ∑ d : Fin 128, X i d * (∑ j : Fin 8192, G i j * Y j d))

end GraphLoss

end
-- ==== Proof.SpecLaw.lean ====
/-
  The law that joins the tiled evaluation to the reference's: when every entry of `G`, `X`, `Y` and the scalar `two`
  are real numbers, the two half-sums (tiles 0–7 and 8–15), each counted 8·128 = 1024 times and the total divided by
  1024, are the reference's numerator.
-/
import proofs.«160321_j30631706755178_1_alg».proof.Proof.Spec
import Mathlib.Data.EReal.Operations
import Mathlib.Algebra.BigOperators.Fin
import Mathlib.Algebra.BigOperators.Ring.Finset
import Mathlib.Data.Fintype.BigOperators
import Mathlib.Logic.Equiv.Fin.Basic
import Mathlib.Tactic.Ring

noncomputable section

open scoped BigOperators

namespace GraphLoss

/-- The coercion of the reals into the extended reals carries a finite sum to the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared norm of row `j` of a real `y`. -/
private def sqNormR (y : Fin 8192 → Fin 128 → ℝ) (j : Fin 8192) : ℝ := ∑ d : Fin 128, y j d * y j d

/-- One tile's contribution, over the reals. -/
private def tileOfR (g : Fin 256 → Fin 8192 → ℝ) (x : Fin 256 → Fin 128 → ℝ) (y : Fin 8192 → Fin 128 → ℝ)
    (t : ℝ) : ℝ :=
  ((∑ a : Fin 256, (∑ j : Fin 8192, g a j) * (∑ d : Fin 128, x a d * x a d))
      + (∑ a : Fin 256, ∑ j : Fin 8192, g a j * sqNormR y j))
    - t * (∑ a : Fin 256, ∑ d : Fin 128, x a d * (∑ j : Fin 8192, g a j * y j d))

/-- Tile `r` of the whole matrices, over the reals. -/
private def tileR (g : Fin 4096 → Fin 8192 → ℝ) (x : Fin 4096 → Fin 128 → ℝ) (y : Fin 8192 → Fin 128 → ℝ)
    (t : ℝ) (r : Fin 16) : ℝ :=
  tileOfR (fun a j => g (row r a) j) (fun a d => x (row r a) d) y t

/-- The reference numerator, over the reals. -/
private def refR (g : Fin 4096 → Fin 8192 → ℝ) (x : Fin 4096 → Fin 128 → ℝ) (y : Fin 8192 → Fin 128 → ℝ)
    (t : ℝ) : ℝ :=
  ((∑ i : Fin 4096, (∑ j : Fin 8192, g i j) * (∑ d : Fin 128, x i d * x i d))
      + (∑ j : Fin 8192, (∑ i : Fin 4096, g i j) * (∑ d : Fin 128, y j d * y j d)))
    - t * (∑ i : Fin 4096, ∑ d : Fin 128, x i d * (∑ j : Fin 8192, g i j * y j d))

/-- On real entries a tile's contribution is the coercion of its real twin. -/
private theorem tileOf_coe (g : Fin 256 → Fin 8192 → ℝ) (x : Fin 256 → Fin 128 → ℝ) (y : Fin 8192 → Fin 128 → ℝ)
    (t : ℝ) :
    tileOf (fun a j => (g a j : EReal)) (fun a d => (x a d : EReal)) (fun j d => (y j d : EReal)) (t : EReal)
      = ((tileOfR g x y t : ℝ) : EReal) := by
  simp only [tileOf, tileOfR, sqNorm, sqNormR, EReal.coe_sub, EReal.coe_add, EReal.coe_mul, coe_sum]

/-- On real entries tile `r` is the coercion of its real twin. -/
private theorem tile_coe (g : Fin 4096 → Fin 8192 → ℝ) (x : Fin 4096 → Fin 128 → ℝ) (y : Fin 8192 → Fin 128 → ℝ)
    (t : ℝ) (r : Fin 16) :
    tile (fun i j => (g i j : EReal)) (fun i d => (x i d : EReal)) (fun j d => (y j d : EReal)) (t : EReal) r
      = ((tileR g x y t r : ℝ) : EReal) := by
  unfold tile tileR
  exact tileOf_coe _ _ _ _

/-- On real entries the reference numerator is the coercion of its real twin. -/
private theorem refNum_coe (g : Fin 4096 → Fin 8192 → ℝ) (x : Fin 4096 → Fin 128 → ℝ) (y : Fin 8192 → Fin 128 → ℝ)
    (t : ℝ) :
    refNum (fun i j => (g i j : EReal)) (fun i d => (x i d : EReal)) (fun j d => (y j d : EReal)) (t : EReal)
      = ((refR g x y t : ℝ) : EReal) := by
  simp only [refNum, refR, EReal.coe_sub, EReal.coe_add, EReal.coe_mul, coe_sum]

/-- Summing over the 16 tiles of 256 rows is summing over all 4096 rows. -/
private theorem sum_row (f : Fin 4096 → ℝ) : ∑ r : Fin 16, ∑ a : Fin 256, f (row r a) = ∑ i : Fin 4096, f i := by
  rw [← Fintype.sum_prod_type']
  refine Fintype.sum_equiv (finProdFinEquiv (m := 16) (n := 256)) _ _ ?_
  rintro ⟨r, a⟩
  congr 1
  ext
  simp only [row, finProdFinEquiv_apply_val]
  omega

/-- The sixteen tiles together make the reference numerator. -/
private theorem sum_tileR (g : Fin 4096 → Fin 8192 → ℝ) (x : Fin 4096 → Fin 128 → ℝ) (y : Fin 8192 → Fin 128 → ℝ)
    (t : ℝ) : ∑ r : Fin 16, tileR g x y t r = refR g x y t := by
  have hB : ∑ i : Fin 4096, ∑ j : Fin 8192, g i j * sqNormR y j
      = ∑ j : Fin 8192, (∑ i : Fin 4096, g i j) * (∑ d : Fin 128, y j d * y j d) := by
    rw [Finset.sum_comm]
    refine Finset.sum_congr rfl fun j _ => ?_
    rw [Finset.sum_mul]
    rfl
  simp only [tileR, tileOfR, refR, Finset.sum_sub_distrib, Finset.sum_add_distrib, ← Finset.mul_sum]
  rw [sum_row (fun i => (∑ j : Fin 8192, g i j) * (∑ d : Fin 128, x i d * x i d)),
    sum_row (fun i => ∑ j : Fin 8192, g i j * sqNormR y j),
    sum_row (fun i => ∑ d : Fin 128, x i d * (∑ j : Fin 8192, g i j * y j d)), hB]

/-- A sum over sixteen indices, written out. -/
private theorem sum_sixteen (F : Fin 16 → ℝ) :
    ∑ r : Fin 16, F r
      = (F 0 + F 1 + F 2 + F 3 + F 4 + F 5 + F 6 + F 7)
        + (F 8 + F 9 + F 10 + F 11 + F 12 + F 13 + F 14 + F 15) := by
  rw [Fin.sum_univ_add (a := 8) (b := 8) F, Fin.sum_univ_eight, Fin.sum_univ_eight]
  rfl

section halves

variable (G : Fin 4096 → Fin 8192 → EReal) (X : Fin 4096 → Fin 128 → EReal) (Y : Fin 8192 → Fin 128 → EReal)
  (two : EReal)

/-- The running sum after tile 7 is the sum of tiles 0–7. -/
private theorem accAt_seven (h : 7 < 16) :
    accAt G X Y two 7 h
      = tile G X Y two 0 + tile G X Y two 1 + tile G X Y two 2 + tile G X Y two 3
        + tile G X Y two 4 + tile G X Y two 5 + tile G X Y two 6 + tile G X Y two 7 := rfl

/-- The running sum after tile 15 is the sum of tiles 8–15: the accumulator restarts at tile 8. -/
private theorem accAt_fifteen (h : 15 < 16) :
    accAt G X Y two 15 h
      = tile G X Y two 8 + tile G X Y two 9 + tile G X Y two 10 + tile G X Y two 11
        + tile G X Y two 12 + tile G X Y two 13 + tile G X Y two 14 + tile G X Y two 15 := rfl

end halves

theorem halves_eq_refNum (G : Fin 4096 → Fin 8192 → EReal) (X : Fin 4096 → Fin 128 → EReal) (Y : Fin 8192 → Fin 128 → EReal)
    (two : EReal) (hG : ∀ i j, ∃ r : ℝ, G i j = (r : EReal)) (hX : ∀ i d, ∃ r : ℝ, X i d = (r : EReal))
    (hY : ∀ j d, ∃ r : ℝ, Y j d = (r : EReal)) (htwo : ∃ r : ℝ, two = (r : EReal)) :
    (∑ p : Fin 2, ∑ _a : Fin 8, ∑ _b : Fin 128,
        accAt G X Y two (8 * p.val + 7) (by have := p.isLt; omega)) * (((1 / 1024 : ℝ) : ℝ) : EReal)
      = refNum G X Y two := by
  choose g hg using hG
  choose x hx using hX
  choose y hy using hY
  obtain ⟨t, rfl⟩ := htwo
  obtain rfl : G = fun i j => (g i j : EReal) := by funext i j; exact hg i j
  obtain rfl : X = fun i d => (x i d : EReal) := by funext i d; exact hx i d
  obtain rfl : Y = fun j d => (y j d : EReal) := by funext j d; exact hy j d
  rw [refNum_coe, ← sum_tileR, sum_sixteen, Fin.sum_univ_two]
  have e0 : ∀ h, accAt (fun i j => (g i j : EReal)) (fun i d => (x i d : EReal)) (fun j d => (y j d : EReal)) (t : EReal)
      (8 * ((0 : Fin 2) : ℕ) + 7) h = _ := fun h => accAt_seven _ _ _ _ h
  have e1 : ∀ h, accAt (fun i j => (g i j : EReal)) (fun i d => (x i d : EReal)) (fun j d => (y j d : EReal)) (t : EReal)
      (8 * ((1 : Fin 2) : ℕ) + 7) h = _ := fun h => accAt_fifteen _ _ _ _ h
  rw [e0, e1]
  simp only [tile_coe, ← EReal.coe_add, ← coe_sum, ← EReal.coe_mul]
  congr 1
  simp only [Finset.sum_const, Finset.card_univ, Fintype.card_fin, nsmul_eq_mul]
  push_cast
  ring

end GraphLoss

end
-- ==== Proof.KernelRead.lean ====
/-
  What the kernel's run leaves, read off its frame: the kernel walks 16 grid points, two halves of 8. At the first point
  of a half it stores the squared row norms of the column features (as a 1 × 8192 row) and resets a 1 × 1 accumulator;
  at every point it adds the point's tile contribution to the accumulator; at the last point of a half it spreads the
  accumulator over that half's 8 × 128 output tile, which is then written back. So after the run the output array's
  entry (p, a, b) is the accumulator of half p after its eighth step (`outArr`, from `lossAt` by induction on the
  point), and the result buffer is the host's tail — total, over 1024, over 2²⁵ — of that array (`run`). Stated for any
  float instance; the arithmetic inside a step is opened elsewhere, at the ideal instance.
-/
import proofs.«160321_j30631706755178_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.Read

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a half (case A) leaves in the row scratch the squared row norms of the column features. -/
theorem sA0 (c : Dev nD) (i : grid0.Coords) (a2 : Memref sig .tc .vmem S256x8192 .f32) (h2 : a2.IsWhole) (a3 : Memref sig .tc .vmem S256x128 .f32) (h3 : a3.IsWhole) (a4 : Memref sig .tc .vmem S8192x128 .f32) (h4 : a4.IsWhole) (a5 : Memref sig .tc .vmem S1x8x128 .f32) (h5 : a5.IsWhole) (a6 : Memref sig .tc .vmem S1x8192 .f32) (h6 : a6.IsWhole) (a7 : Memref sig .tc .vmem S1x1 .f32) (h7 : a7.IsWhole) (hc0 : cond0_0 i) (hc1 : ¬cond0_1 i) (x0 : Vec F S256x8192 .f32) (x1 : Vec F S256x128 .f32) (x2 : Vec F S8192x128 .f32) :
    sout0_A_0 c i a2 h2 a3 h3 a4 h4 a5 h5 a6 h6 a7 h7 hc0 hc1 x0 x1 x2 = k0_pay3 x2 := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_unit_zero hz2]
  simp only [View.readAt_eq_ld, h2.read_unread, h3.read_unread, h4.read_unread, h6.read_unread, h7.read_unread, View.ld_unit_zero (S := S256x8192) hz2, View.ld_unit_zero (S := S256x128) hz2, View.ld_unit_zero (S := S8192x128) hz2, View.ld_unit_zero (S := S1x8192) hz2, View.ld_unit_zero (S := S1x1) hz2]

/-- The first step of a half (case A) resets the accumulator to zero, reads it and the freshly stored norms back, and
    leaves the first tile's step over that zero. -/
theorem sA1 (c : Dev nD) (i : grid0.Coords) (a2 : Memref sig .tc .vmem S256x8192 .f32) (h2 : a2.IsWhole) (a3 : Memref sig .tc .vmem S256x128 .f32) (h3 : a3.IsWhole) (a4 : Memref sig .tc .vmem S8192x128 .f32) (h4 : a4.IsWhole) (a5 : Memref sig .tc .vmem S1x8x128 .f32) (h5 : a5.IsWhole) (a6 : Memref sig .tc .vmem S1x8192 .f32) (h6 : a6.IsWhole) (a7 : Memref sig .tc .vmem S1x1 .f32) (h7 : a7.IsWhole) (hc0 : cond0_0 i) (hc1 : ¬cond0_1 i) (x0 : Vec F S256x8192 .f32) (x1 : Vec F S256x128 .f32) (x2 : Vec F S8192x128 .f32) :
    sout0_A_1 c i a2 h2 a3 h3 a4 h4 a5 h5 a6 h6 a7 h7 hc0 hc1 x0 x1 x2 = k0_pay1 (k0_pay5 x0 x1 x2 (k0_pay3 x2) k0_pay4) := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S1x1) hz2]
  simp only [View.readAt_eq_ld, h2.read_unread, h3.read_unread, h4.read_unread, h6.read_unread, h7.read_unread, View.ld_unit_zero (S := S256x8192) hz2, View.ld_unit_zero (S := S256x128) hz2, View.ld_unit_zero (S := S8192x128) hz2, View.ld_unit_zero (S := S1x8192) hz2, View.ld_unit_zero (S := S1x1) hz2, View.readCov_unit_zero (S := S1x8192) _ hz2, View.readCov_unit_zero (S := S1x1) _ hz2]

/-- A middle step (case B) leaves the step over the accumulator and the norms the step before left. -/
theorem sB1 (c : Dev nD) (i : grid0.Coords) (a2 : Memref sig .tc .vmem S256x8192 .f32) (h2 : a2.IsWhole) (a3 : Memref sig .tc .vmem S256x128 .f32) (h3 : a3.IsWhole) (a4 : Memref sig .tc .vmem S8192x128 .f32) (h4 : a4.IsWhole) (a5 : Memref sig .tc .vmem S1x8x128 .f32) (h5 : a5.IsWhole) (a6 : Memref sig .tc .vmem S1x8192 .f32) (h6 : a6.IsWhole) (a7 : Memref sig .tc .vmem S1x1 .f32) (h7 : a7.IsWhole) (hc0 : ¬cond0_0 i) (hc1 : ¬cond0_1 i) (x0 : Vec F S256x8192 .f32) (x1 : Vec F S256x128 .f32) (x2 : Vec F S8192x128 .f32) (xs0 : Vec F S1x8192 .f32) (xs1 : Vec F S1x1 .f32) :
    sout0_B_1 c i a2 h2 a3 h3 a4 h4 a5 h5 a6 h6 a7 h7 hc0 hc1 x0 x1 x2 xs0 xs1 = k0_pay1 (k0_pay5 x0 x1 x2 xs0 xs1) := by
  unfold sout0_B_1
  rw [View.read_writes_eq_canon _ _ _ (scover0_B_1 c i a2 h2 a3 h3 a4 h4 a5 h5 a6 h6 a7 h7 hc0 hc1 x0 x1 x2 xs0 xs1)]
  unfold kernelRun0_B
  dsimp only
  sl_unfold_words
  rw [View.canon_unit_zero hz2]
  simp only [View.readAt_eq_ld, h2.read_unread, h3.read_unread, h4.read_unread, h6.read_unread, h7.read_unread, View.ld_unit_zero (S := S256x8192) hz2, View.ld_unit_zero (S := S256x128) hz2, View.ld_unit_zero (S := S8192x128) hz2, View.ld_unit_zero (S := S1x8192) hz2, View.ld_unit_zero (S := S1x1) hz2]

/-- The last step of a half (case C) leaves the same step in the accumulator … -/
theorem sC1 (c : Dev nD) (i : grid0.Coords) (a2 : Memref sig .tc .vmem S256x8192 .f32) (h2 : a2.IsWhole) (a3 : Memref sig .tc .vmem S256x128 .f32) (h3 : a3.IsWhole) (a4 : Memref sig .tc .vmem S8192x128 .f32) (h4 : a4.IsWhole) (a5 : Memref sig .tc .vmem S1x8x128 .f32) (h5 : a5.IsWhole) (a6 : Memref sig .tc .vmem S1x8192 .f32) (h6 : a6.IsWhole) (a7 : Memref sig .tc .vmem S1x1 .f32) (h7 : a7.IsWhole) (hc0 : ¬cond0_0 i) (hc1 : cond0_1 i) (x0 : Vec F S256x8192 .f32) (x1 : Vec F S256x128 .f32) (x2 : Vec F S8192x128 .f32) (xs0 : Vec F S1x8192 .f32) (xs1 : Vec F S1x1 .f32) :
    sout0_C_1 c i a2 h2 a3 h3 a4 h4 a5 h5 a6 h6 a7 h7 hc0 hc1 x0 x1 x2 xs0 xs1 = k0_pay1 (k0_pay5 x0 x1 x2 xs0 xs1) := by
  unfold sout0_C_1
  rw [View.read_writes_eq_canon _ _ _ (scover0_C_1 c i a2 h2 a3 h3 a4 h4 a5 h5 a6 h6 a7 h7 hc0 hc1 x0 x1 x2 xs0 xs1)]
  unfold kernelRun0_C
  dsimp only
  sl_unfold_words
  rw [View.canon_unit_zero hz2]
  simp only [View.readAt_eq_ld, h2.read_unread, h3.read_unread, h4.read_unread, h6.read_unread, h7.read_unread, View.ld_unit_zero (S := S256x8192) hz2, View.ld_unit_zero (S := S256x128) hz2, View.ld_unit_zero (S := S8192x128) hz2, View.ld_unit_zero (S := S1x8192) hz2, View.ld_unit_zero (S := S1x1) hz2]

/-- … and, reading it back, spreads it over the half's output tile. -/
theorem oC3 (c : Dev nD) (i : grid0.Coords) (a2 : Memref sig .tc .vmem S256x8192 .f32) (h2 : a2.IsWhole) (a3 : Memref sig .tc .vmem S256x128 .f32) (h3 : a3.IsWhole) (a4 : Memref sig .tc .vmem S8192x128 .f32) (h4 : a4.IsWhole) (a5 : Memref sig .tc .vmem S1x8x128 .f32) (h5 : a5.IsWhole) (a6 : Memref sig .tc .vmem S1x8192 .f32) (h6 : a6.IsWhole) (a7 : Memref sig .tc .vmem S1x1 .f32) (h7 : a7.IsWhole) (hc0 : ¬cond0_0 i) (hc1 : cond0_1 i) (x0 : Vec F S256x8192 .f32) (x1 : Vec F S256x128 .f32) (x2 : Vec F S8192x128 .f32) (xs0 : Vec F S1x8192 .f32) (xs1 : Vec F S1x1 .f32) :
    out0_C_3 c i a2 h2 a3 h3 a4 h4 a5 h5 a6 h6 a7 h7 hc0 hc1 x0 x1 x2 xs0 xs1 = k0_pay2 (k0_pay1 (k0_pay5 x0 x1 x2 xs0 xs1)) := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.canon_unit_zero hz3]
  simp only [View.readAt_eq_ld, h2.read_unread, h3.read_unread, h4.read_unread, h6.read_unread, h7.read_unread, View.ld_unit_zero (S := S256x8192) hz2, View.ld_unit_zero (S := S256x128) hz2, View.ld_unit_zero (S := S8192x128) hz2, View.ld_unit_zero (S := S1x8192) hz2, View.ld_unit_zero (S := S1x1) hz2, View.readCov_unit_zero (S := S1x1) _ hz2]

variable (m : (ℓ : Loc nD τ sig) → Buf (Elt F) ℓ) (ρ : Dev nD → PrngReg)

/-- The blocks the three input windows hold at grid point `t`, at their literal types: 256 rows of the weights, the same
    256 rows of the row features, and all of the column features. -/
abbrev gblk (c : Dev nD) (t : Fin cfg0.N) : Vec F S256x8192 .f32 := iblk m c 0 t
abbrev xblk (c : Dev nD) (t : Fin cfg0.N) : Vec F S256x128 .f32 := iblk m c 1 t
/-- The column features as the region finds them. -/
abbrev yarr (c : Dev nD) : Vec F S8192x128 .f32 := V m c main_arg2

/-- The third window's block is the whole array at every point: its block index is (0, 0) and its block the array's size. -/
theorem yblk_eq (c : Dev nD) (t : Fin cfg0.N) : (iblk m c 2 t : Vec F S8192x128 .f32) = yarr m c := by
  have hz' : (fun a => win0_2.index t a * main_arg2.ty.shape.size a) = fun _ => 0 := by
    rcases fin_N0 t with rfl | rfl | rfl | rfl | rfl | rfl | rfl | rfl | rfl | rfl | rfl | rfl | rfl | rfl | rfl | rfl <;>
      exact funext fun a => by fin_cases a <;> decide
  exact Memref.read_access_unit_zero (Elt F) main_arg2 hz' (fun a => by rw [congrFun hz' a]; simp) (V m c main_arg2)

/-- The accumulator after grid point `n`: restarted from the reset value at the first point of each half (n ≡ 0 mod 8),
    otherwise one more step over what the point before left; the squared norms are always those of the column features. -/
def lossAt (c : Dev nD) : (n : ℕ) → n < cfg0.N → Vec F S1x1 .f32
  | 0, h => k0_pay1 (k0_pay5 (gblk m c ⟨0, h⟩) (xblk m c ⟨0, h⟩) (yarr m c) (k0_pay3 (yarr m c)) k0_pay4)
  | n + 1, h =>
    if (n + 1) % 8 = 0 then
      k0_pay1 (k0_pay5 (gblk m c ⟨n + 1, h⟩) (xblk m c ⟨n + 1, h⟩) (yarr m c) (k0_pay3 (yarr m c)) k0_pay4)
    else
      k0_pay1 (k0_pay5 (gblk m c ⟨n + 1, h⟩) (xblk m c ⟨n + 1, h⟩) (yarr m c) (k0_pay3 (yarr m c)) (lossAt c n (Nat.lt_of_succ_lt h)))

theorem lossAt_reset (c : Dev nD) (n : ℕ) (h : n + 1 < cfg0.N) (h0 : (n + 1) % 8 = 0) :
    lossAt m c (n + 1) h = k0_pay1 (k0_pay5 (gblk m c ⟨n + 1, h⟩) (xblk m c ⟨n + 1, h⟩) (yarr m c) (k0_pay3 (yarr m c)) k0_pay4) := by
  rw [lossAt, if_pos h0]

theorem lossAt_step (c : Dev nD) (n : ℕ) (h : n + 1 < cfg0.N) (h0 : ¬(n + 1) % 8 = 0) :
    lossAt m c (n + 1) h = k0_pay1 (k0_pay5 (gblk m c ⟨n + 1, h⟩) (xblk m c ⟨n + 1, h⟩) (yarr m c) (k0_pay3 (yarr m c)) (lossAt m c n (Nat.lt_of_succ_lt h))) := by
  rw [lossAt, if_neg h0]

/-- What the two carried scratch buffers hold after grid point `n`: the squared norms, and the accumulator. By induction
    on the point: the first point of a half stores both afresh, every other point keeps the norms and steps the accumulator. -/
theorem scratch_eq (c : Dev nD) : ∀ (n : ℕ) (h : n < cfg0.N),
    (outsAt0 m c n h).2.1 = k0_pay3 (yarr m c) ∧ (outsAt0 m c n h).2.2 = lossAt m c n h
  | 0, h => by
    have h1 : ¬(⟨0, h⟩ : Fin cfg0.N).val % 8 = 7 := by show ¬0 % 8 = 7; decide
    rw [outsAt0_A m c ⟨0, h⟩ rfl h1]
    dsimp only
    refine ⟨?_, ?_⟩
    · rw [sA0, yblk_eq]
    · rw [sA1, yblk_eq]; rfl
  | n + 1, h => by
    obtain ⟨ih0, ih1⟩ := scratch_eq c n (Nat.lt_of_succ_lt h)
    by_cases h0 : (n + 1) % 8 = 0
    · have h1 : ¬(n + 1) % 8 = 7 := by omega
      rw [outsAt0_A m c ⟨n + 1, h⟩ h0 h1]
      dsimp only
      refine ⟨?_, ?_⟩
      · rw [sA0, yblk_eq]
      · rw [sA1, yblk_eq, lossAt_reset m c n h h0]
    · by_cases h1 : (n + 1) % 8 = 7
      · rw [outsAt0_C m c ⟨n + 1, h⟩ h0 h1]
        dsimp only
        refine ⟨?_, ?_⟩
        · unfold sout0_C_0; exact ih0
        · rw [sC1, yblk_eq, lossAt_step m c n h h0]
          show k0_pay1 (k0_pay5 _ _ _ (outsAt0 m c n _).2.1 (outsAt0 m c n _).2.2) = _
          rw [ih0, ih1]
      · rw [outsAt0_B m c ⟨n + 1, h⟩ h0 h1]
        dsimp only
        refine ⟨?_, ?_⟩
        · unfold sout0_B_0; exact ih0
        · rw [sB1, yblk_eq, lossAt_step m c n h h0]
          show k0_pay1 (k0_pay5 _ _ _ (outsAt0 m c n _).2.1 (outsAt0 m c n _).2.2) = _
          rw [ih0, ih1]

/-- At the last point of a half the output tile's staging buffer holds the accumulator spread over the tile. -/
theorem out_eq (c : Dev nD) (t : Fin cfg0.N) (h7 : t.val % 8 = 7) :
    (outsAt0 m c t.val t.isLt).1 = k0_pay2 (lossAt m c t.val t.isLt) := by
  obtain ⟨n, h⟩ := t
  cases n with
  | zero => exact absurd h7 (by show ¬0 % 8 = 7; decide)
  | succ n =>
    have h0 : ¬(n + 1) % 8 = 0 := by dsimp only at h7; omega
    obtain ⟨ih0, ih1⟩ := scratch_eq m c n (Nat.lt_of_succ_lt h)
    rw [outsAt0_C m c ⟨n + 1, h⟩ h0 h7]
    dsimp only
    rw [oC3, yblk_eq, lossAt_step m c n h h0]
    show k0_pay2 (k0_pay1 (k0_pay5 _ _ _ (outsAt0 m c n _).2.1 (outsAt0 m c n _).2.2)) = _
    rw [ih0, ih1]

/-- The output array after the run, as one function of its index: entry (p, a, b) is the spread accumulator of half `p`
    after that half's last point 8p + 7. -/
def outArr (c : Dev nD) : Buf (Elt F) ((c : Thread nD τ).loc main_v0) :=
  fun i => k0_pay2 (lossAt m c (8 * (i 0).val + 7) (by
    have h2 : (i 0).val < 2 := (i 0).isLt
    have hN : cfg0.N = 16 := N_0
    omega)) (ValueIdx.ix3 (0 : Fin 1) (i 1) (i 2))

/-- The spread accumulator depends only on the point's number and the position's coordinates. -/
theorem spread_congr (c : Dev nD) {n n' : ℕ} (e : n = n') (h : n < cfg0.N) (h' : n' < cfg0.N) {b b' : S1x8x128.Idx}
    (eb : b = b') : k0_pay2 (lossAt m c n h) b = k0_pay2 (lossAt m c n' h') b' := by
  subst e; subst eb; rfl

/-- What the write-back at a half's last point writes is that half's block of `outArr`: the block at point 8p + 7 is
    block p of the array, read at the same in-block coordinates. -/
theorem flushed_eq (c : Dev nD) (t : Fin cfg0.N) (hf : (cfg0.win 3).flush t = true) :
    (dats m 0 c).flushed 3 t = ((cfg0.win 3).blk t).view.read (Elt F) (outArr m c) := by
  have h7 : t.val % 8 = 7 := (flush0_3 t).mp hf
  have hN : cfg0.N = 16 := N_0
  show (cfg0.win 3).cut (grid0.coords t) ((dats m 0 c).after 3 t) = _
  rw [after0_3, out_eq m c t h7]
  have ht : t.val = 7 ∨ t.val = 15 := by have := t.isLt; omega
  rcases ht with ht | ht
  · obtain rfl : t = t0_7 := Fin.ext ht
    funext y
    rw [View.read_apply]
    have hy0 : (y 0 : Nat) < win0_3.xsize (grid0.coords t0_7) 0 := (y 0).isLt
    rw [show win0_3.xsize (grid0.coords t0_7) 0 = 1 from by decide +kernel] at hy0
    have e0 : ((((cfg0.win 3).blk t0_7).view.emb y) 0 : Nat) = 0 := by
      show win0_3.index t0_7 0 * 1 + 1 * (y 0 : Nat) = _
      rw [show win0_3.index t0_7 0 = 0 from by decide +kernel]; omega
    have e1 : ((((cfg0.win 3).blk t0_7).view.emb y) 1 : Nat) = (y 1 : Nat) := by
      show win0_3.index t0_7 1 * 8 + 1 * (y 1 : Nat) = _
      rw [show win0_3.index t0_7 1 = 0 from by decide +kernel]; omega
    have e2 : ((((cfg0.win 3).blk t0_7).view.emb y) 2 : Nat) = (y 2 : Nat) := by
      show win0_3.index t0_7 2 * 128 + 1 * (y 2 : Nat) = _
      rw [show win0_3.index t0_7 2 = 0 from by decide +kernel]; omega
    show k0_pay2 (lossAt m c 7 _) (win0_3.xinj (grid0.coords t0_7) y) = outArr m c (((cfg0.win 3).blk t0_7).view.emb y)
    unfold outArr
    refine spread_congr m c (by rw [e0]) _ _ (funext fun a => Fin.ext ?_)
    match a with
    | ⟨0, _⟩ => show (y 0 : Nat) = 0; omega
    | ⟨1, _⟩ => exact e1.symm
    | ⟨2, _⟩ => exact e2.symm
  · obtain rfl : t = t0_15 := Fin.ext ht
    funext y
    rw [View.read_apply]
    have hy0 : (y 0 : Nat) < win0_3.xsize (grid0.coords t0_15) 0 := (y 0).isLt
    rw [show win0_3.xsize (grid0.coords t0_15) 0 = 1 from by decide +kernel] at hy0
    have e0 : ((((cfg0.win 3).blk t0_15).view.emb y) 0 : Nat) = 1 := by
      show win0_3.index t0_15 0 * 1 + 1 * (y 0 : Nat) = _
      rw [show win0_3.index t0_15 0 = 1 from by decide +kernel]; omega
    have e1 : ((((cfg0.win 3).blk t0_15).view.emb y) 1 : Nat) = (y 1 : Nat) := by
      show win0_3.index t0_15 1 * 8 + 1 * (y 1 : Nat) = _
      rw [show win0_3.index t0_15 1 = 0 from by decide +kernel]; omega
    have e2 : ((((cfg0.win 3).blk t0_15).view.emb y) 2 : Nat) = (y 2 : Nat) := by
      show win0_3.index t0_15 2 * 128 + 1 * (y 2 : Nat) = _
      rw [show win0_3.index t0_15 2 = 0 from by decide +kernel]; omega
    show k0_pay2 (lossAt m c 15 _) (win0_3.xinj (grid0.coords t0_15) y) = outArr m c (((cfg0.win 3).blk t0_15).view.emb y)
    unfold outArr
    refine spread_congr m c (by rw [e0]) _ _ (funext fun a => Fin.ext ?_)
    match a with
    | ⟨0, _⟩ => show (y 0 : Nat) = 0; omega
    | ⟨1, _⟩ => exact e1.symm
    | ⟨2, _⟩ => exact e2.symm

/-- The two write-backs (points 7 and 15) cover the output array — half `p`'s tile is block `p` —, so after the run it
    holds `outArr`. -/
theorem final_out (c : Dev nD) : (dats m 0 c).arrAt 3 cfg0.N = outArr m c :=
  (dats m 0 c).arrAt_eq_of_cover 3 (outArr m c) (flushed_eq m c) fun i => by
    have h0 : (i 0 : Nat) < 2 := (i 0).isLt
    have h1 : (i 1 : Nat) < 8 := (i 1).isLt
    have h2 : (i 2 : Nat) < 128 := (i 2).isLt
    by_cases hp : (i 0 : Nat) = 0
    ·
      refine ⟨t0_7, (flush0_3 t0_7).mpr rfl, ?_⟩
      show i ∈ ((View.whole main_v0).slice (win0_3.rect t0_7)).set
      rw [View.set_slice_whole, Rect.mem_set_unit]
      intro a
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 8 from by decide +kernel]; omega
      | ⟨2, _⟩ => show win0_3.index t0_7 2 * win0_3.size 2 ≤ (i 2 : Nat) ∧ (i 2 : Nat) < win0_3.index t0_7 2 * win0_3.size 2 + win0_3.xsize (grid0.coords t0_7) 2
                  rw [show win0_3.index t0_7 2 * win0_3.size 2 = 0 from by decide +kernel, show win0_3.xsize (grid0.coords t0_7) 2 = 128 from by decide +kernel]; omega
    ·
      refine ⟨t0_15, (flush0_3 t0_15).mpr rfl, ?_⟩
      show i ∈ ((View.whole main_v0).slice (win0_3.rect t0_15)).set
      rw [View.set_slice_whole, Rect.mem_set_unit]
      intro a
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 1 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 8 from by decide +kernel]; omega
      | ⟨2, _⟩ => show win0_3.index t0_15 2 * win0_3.size 2 ≤ (i 2 : Nat) ∧ (i 2 : Nat) < win0_3.index t0_15 2 * win0_3.size 2 + win0_3.xsize (grid0.coords t0_15) 2
                  rw [show win0_3.index t0_15 2 * win0_3.size 2 = 0 from by decide +kernel, show win0_3.xsize (grid0.coords t0_15) 2 = 128 from by decide +kernel]; omega

/-- The host lines after the region, as one function of the output array: its total, over 1024, over 2²⁵. -/
def tail (o : Vec F S2x8x128 .f32) : Vec F S_ .f32 :=
  Host.divf (Host.divf (Host.reduceAdd o (constant S_ .f32 0x00000000#32) reducesTo_S2x8x128_S_d0_1_2 h_S_)
    (constant S_ .f32 0x44800000#32)) (constant S_ .f32 0x4C000000#32)

/-- What the lines after the region leave in the result buffer: `tail` of the output array. -/
theorem tail_eq (c : Dev nD) :
    Pipeline.afterTail₀ cfgs (dats m) 0 (V0 m) [hostOps1] c main_v3 = tail (outArr m c) := by
  unfold Pipeline.afterTail₀
  show StableHlo.after hostOps1 _ (Proc.devRef .tc main_v3) = _
  after_results
  exact congrArg tail ((Pipeline.withArrays_arr spec0 launch0.win.arr_inj c _ _ 3).trans (final_out m c))

/-- The run, read: every weakly fair execution terminates with the result buffer at `tail` of the output array and the
    three arguments unchanged. -/
theorem run : θ_run defs (onTc (τ := τ) (main (F := F))) ⟨m, fun _ => 0, ρ⟩ fun r => ∀ c : Dev nD,
      r.2.mem ((c : Thread nD τ).loc main_v3) = tail (outArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v3 (Pipeline.mem_restRefs_of main_v3 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Read
end
-- ==== Proof.TileValue.lean ====
/-
  The kernel body's arithmetic read at the ideal instance: what each stored value is, as a formula of the loaded blocks.
-/
import proofs.«160321_j30631706755178_1_alg».proof.Proof.Gen.KernelIdeal.Skeleton
import proofs.«160321_j30631706755178_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.TileValue

open Cert.KernelIdeal Cert.KernelIdeal.Gen

/-! ## Layout operations at coordinates -/

/-- A vector viewed as a column, `[a] → [a, 1]`, reads at `(i, u)` the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, 1]` block broadcast to `[a, b, c]` reads its one entry everywhere. -/
private theorem broadcastTo_111_abc_apply {α : Type} {a b c : ℕ} (v : (⟨3, ![1, 1, 1]⟩ : Shape).Idx → α)
    (h : (⟨3, ![1, 1, 1]⟩ : Shape).Broadcasts ⟨3, ![a, b, c]⟩) (p : Fin a) (q : Fin b) (r : Fin c) :
    broadcastTo ⟨3, ![a, b, c]⟩ v h (ix3 p q r) = v (ix3 (0 : Fin 1) (0 : Fin 1) (0 : Fin 1)) := by
  refine broadcastTo_apply v h (ix3 p q r) (ix3 (0 : Fin 1) (0 : Fin 1) (0 : Fin 1)) fun ax => ?_
  match ax with
  | ⟨0, _⟩ => rfl
  | ⟨1, _⟩ => rfl
  | ⟨2, _⟩ => rfl

/-! ## Sums along one axis -/

/-- The sum along the lanes of an `a × b` block, at row `r`: the sum over the row. -/
private theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun c => Fin.ext ?_)
  match c with
  | ⟨0, _⟩ => rfl
  | ⟨1, _⟩ => rfl

/-- The sum down an `a × 1` column: the sum of its entries. -/
private theorem sum_axis0_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  show ∑ k : Fin a, src (h.lift (ix1 u) k) = _
  refine Finset.sum_congr rfl fun k _ => congrArg src (funext fun c => Fin.ext ?_)
  match c with
  | ⟨0, _⟩ => rfl
  | ⟨1, _⟩ => show (u : ℕ) = 0; omega

/-- The row sums of an `a × b` block, viewed as a column: at `(r, u)` the sum over row `r`. -/
private theorem rowsum_col_apply {a b : ℕ} (m : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (r : Fin a) (u : Fin 1) :
    shapeCast ⟨2, ![a, 1]⟩ (multiReduction .add [1] ⟨1, ![a]⟩ m 0x00000000#32 h hφ hacc) hc (ix2 r u)
      = ∑ k : Fin b, m (ix2 r k) :=
  (shapeCast_a_a1_apply _ hc r u).trans (sum_axis1_apply m h hφ hacc r)

/-- The sum down an `a × 1` column, viewed as a 1 × 1 block: the sum of the column's entries. -/
private theorem colsum_11_apply {a : ℕ} (w : FVec Ideal ⟨2, ![a, 1]⟩ .f32)
    (h : (⟨2, ![a, 1]⟩ : Shape).Reduces [0] ⟨1, ![1]⟩) (hφ : FKind.Formats .f32)
    (hacc : (0x00000000#32 : BitVec 32) = 0x00000000#32)
    (hc : (⟨1, ![1]⟩ : Shape).ShapeCasts ⟨2, ![1, 1]⟩) (u v : Fin 1) :
    shapeCast ⟨2, ![1, 1]⟩ (multiReduction .add [0] ⟨1, ![1]⟩ w 0x00000000#32 h hφ hacc) hc (ix2 u v)
      = ∑ k : Fin a, w (ix2 k (0 : Fin 1)) :=
  (shapeCast_a_1a_apply _ hc u v).trans (sum_axis0_apply w h hφ hacc v)

/-- The one index of a 1 × 1 block. -/
abbrev z11 : S1x1.Idx := ix2 0 0

/-- Re-casting a 1 × 1 block to its own shape changes nothing (any float instance). -/
theorem pay1_eq {F : FTy → Type} [FloatOps F] (v : FVec F S1x1 .f32) : k0_pay1 v = v := by
  unfold k0_pay1
  exact shapeCast_self v _

/-- The reset value of the accumulator is zero. -/
theorem pay4_apply (y : S1x1.Idx) : k0_pay4 (F := Ideal) y = (0 : EReal) := by
  unfold k0_pay4
  rw [shapeCast_self]
  exact Ideal.ofBits_zero_f32

/-- The output tile is the accumulator's one entry at every position (any float instance). -/
theorem pay2_apply {F : FTy → Type} [FloatOps F] (v : Vec F S1x1 .f32) (b : S1x8x128.Idx) : k0_pay2 v b = v z11 := by
  obtain ⟨p, q, r, rfl⟩ : ∃ (p : Fin 1) (q : Fin 8) (r : Fin 128), b = ix3 p q r := ⟨b 0, b 1, b 2, eq_ix3 b⟩
  unfold k0_pay2
  refine (broadcastTo_111_abc_apply _ _ p q r).trans ?_
  exact shapeCast_ab_1ab_apply v _ (0 : Fin 1) (0 : Fin 1) (0 : Fin 1)

/-- The squared row norms of the column features, laid out as a 1 × 8192 row. -/
theorem pay3_apply (ax : Vec Ideal S8192x128 .f32) (j : Fin 8192) :
    k0_pay3 ax (ix2 (0 : Fin 1) j) = GraphLoss.sqNorm (fun j d => ax (ix2 j d)) j := by
  unfold k0_pay3 GraphLoss.sqNorm
  rw [shapeCast_self]
  refine (transpose_ix2_apply _ _ (0 : Fin 1) j).trans ?_
  refine (shapeCast_a_a1_apply _ _ j (0 : Fin 1)).trans ?_
  refine (sum_axis1_apply _ _ _ _ j).trans ?_
  rfl

/-! ## The matrix product at an index -/

/-- The left operand's index has the output's row on axis 0 … -/
private theorem lhs_mm_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
/-- … and the contraction coordinate on axis 1. -/
private theorem lhs_mm_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
/-- The right operand's index has the contraction coordinate on axis 0 … -/
private theorem rhs_mm_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
/-- … and the output's column on axis 1. -/
private theorem rhs_mm_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- The product of a 256 × 8192 block with an 8192 × 128 block, accumulated into zero, at `(p, d)`:
    the sum over `k` of the left at `(p, k)` times the right at `(k, d)`. -/
private theorem matmul_zero_apply (l : FVec Ideal S256x8192 .bf16) (r : FVec Ideal S8192x128 .bf16) (p : Fin 256) (d : Fin 128) :
    matmul dot_S256x8192_S8192x128_S256x128_1_0_0_1_n_n none l r (constant (F := Ideal) S256x128 .f32 0x00000000#32) (ix2 p d)
      = ∑ k : Fin 8192, l (ix2 p k) * r (ix2 k d) := by
  simp only [matmul]
  rw [Ideal.matmul_constant_zero_apply, ← Equiv.sum_comp (contrEquiv1 dot_S256x8192_S8192x128_S256x128_1_0_0_1_n_n 8192 rfl rfl).symm]
  refine Finset.sum_congr rfl fun k _ => ?_
  have hk := contrEquiv1_symm_val dot_S256x8192_S8192x128_S256x128_1_0_0_1_n_n 8192 rfl rfl k
  have el : dot_S256x8192_S8192x128_S256x128_1_0_0_1_n_n.lhsIdx (ix2 p d) ((contrEquiv1 dot_S256x8192_S8192x128_S256x128_1_0_0_1_n_n 8192 rfl rfl).symm k) = ix2 p k := funext fun a => Fin.ext (by
    match a with
    | ⟨0, _⟩ => exact lhs_mm_0 _ _
    | ⟨1, _⟩ => exact (lhs_mm_1 _ _).trans hk)
  have er : dot_S256x8192_S8192x128_S256x128_1_0_0_1_n_n.rhsIdx (ix2 p d) ((contrEquiv1 dot_S256x8192_S8192x128_S256x128_1_0_0_1_n_n 8192 rfl rfl).symm k) = ix2 k d := funext fun a => Fin.ext (by
    match a with
    | ⟨0, _⟩ => exact (rhs_mm_0 _ _).trans hk
    | ⟨1, _⟩ => exact rhs_mm_1 _ _)
  rw [el, er]

/-- One grid step: the accumulator plus the tile's contribution, the squared norms read from the row the first step stored. -/
theorem pay5_apply (g : Vec Ideal S256x8192 .f32) (sx : Vec Ideal S256x128 .f32) (ax : Vec Ideal S8192x128 .f32)
    (acc : Vec Ideal S1x1 .f32) :
    k0_pay5 g sx ax (k0_pay3 ax) acc z11
      = acc z11 + GraphLoss.tileOf (fun a j => g (ix2 a j)) (fun a d => sx (ix2 a d)) (fun j d => ax (ix2 j d))
          (Ideal.ofBits .f32 0x40000000#32) := by
  unfold k0_pay5 GraphLoss.tileOf
  -- acc + ((first + second) − two · third), term by term
  refine (addf_apply _ _ z11).trans ?_
  refine congrArg (acc z11 + ·) ?_
  refine (subf_apply _ _ z11).trans ?_
  refine congrArg₂ (· - ·) ?_ ?_
  · refine (addf_apply _ _ z11).trans ?_
    refine congrArg₂ (· + ·) ?_ ?_
    · -- ∑ₐ (∑ⱼ gₐⱼ) · ‖xₐ‖²
      refine (colsum_11_apply _ _ _ _ _ (0 : Fin 1) (0 : Fin 1)).trans ?_
      refine Finset.sum_congr rfl fun a _ => ?_
      refine (mulf_apply _ _ _).trans ?_
      exact congrArg₂ (· * ·) (rowsum_col_apply _ _ _ _ _ a (0 : Fin 1)) (rowsum_col_apply _ _ _ _ _ a (0 : Fin 1))
    · -- ∑ₐ ∑ⱼ gₐⱼ · ‖Yⱼ‖²
      refine (colsum_11_apply _ _ _ _ _ (0 : Fin 1) (0 : Fin 1)).trans ?_
      refine Finset.sum_congr rfl fun a _ => ?_
      refine (rowsum_col_apply _ _ _ _ _ a (0 : Fin 1)).trans ?_
      refine Finset.sum_congr rfl fun j _ => ?_
      refine (mulf_apply _ _ _).trans ?_
      refine congrArg (g (ix2 a j) * ·) ?_
      refine (broadcastTo_1b_ab_apply _ _ a j).trans ?_
      exact pay3_apply ax j
  · -- two · ∑ₐ ∑_d xₐd · (g Y)ₐd
    refine (mulf_apply _ _ z11).trans ?_
    refine congrArg (Ideal.ofBits .f32 0x40000000#32 * ·) ?_
    refine (colsum_11_apply _ _ _ _ _ (0 : Fin 1) (0 : Fin 1)).trans ?_
    refine Finset.sum_congr rfl fun a _ => ?_
    refine (rowsum_col_apply _ _ _ _ _ a (0 : Fin 1)).trans ?_
    refine Finset.sum_congr rfl fun d _ => ?_
    refine (mulf_apply _ _ _).trans ?_
    refine congrArg (sx (ix2 a d) * ·) ?_
    exact matmul_zero_apply _ _ a d

end Cert.KernelIdeal.TileValue

end
-- ==== Proof.KernelValue.lean ====
/-
  The kernel's result at the ideal instance, as mathematics. With G, X, Y the three input arrays' entries and `two` the
  scalar the body multiplies the cross term by: the block the first window holds at grid point t is rows 256t … 256t+255
  of G (likewise X), so a step's contribution is tile t of Proof/Spec.lean; by induction on the point the accumulator
  after point n is `GraphLoss.accAt … n`; the output array's entry (p, a, b) is the accumulator after point 8p + 7;
  and the host's tail sums all 2 · 8 · 128 entries and divides by 1024 and by 2²⁵.
-/
import proofs.«160321_j30631706755178_1_alg».proof.Proof.KernelRead
import proofs.«160321_j30631706755178_1_alg».proof.Proof.TileValue
import proofs.«160321_j30631706755178_1_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.LossValue

open Cert.KernelIdeal Cert.KernelIdeal.Gen Cert.KernelIdeal.Read Cert.KernelIdeal.TileValue

variable (m : (ℓ : Loc nD τ sig) → Buf (Elt Ideal) ℓ)

/-- The three input arrays as matrices of extended reals, and the body's scalar. -/
abbrev Gm (c : Dev nD) : Fin 4096 → Fin 8192 → EReal := fun i j => (V m c main_arg0 : Vec Ideal S4096x8192 .f32) (ix2 i j)
abbrev Xm (c : Dev nD) : Fin 4096 → Fin 128 → EReal := fun i d => (V m c main_arg1 : Vec Ideal S4096x128 .f32) (ix2 i d)
abbrev Ym (c : Dev nD) : Fin 8192 → Fin 128 → EReal := fun j d => (V m c main_arg2 : Vec Ideal S8192x128 .f32) (ix2 j d)
abbrev twoW : EReal := Ideal.ofBits .f32 0x40000000#32

/-- The first two windows step down the rows with the grid point: block index (t, 0). -/
theorem idx0_facts : ∀ t : Fin cfg0.N, win0_0.index t 0 = t.val ∧ win0_0.index t 1 = 0 :=
  (by decide +kernel : ∀ t : Fin grid0.N, win0_0.index t 0 = t.val ∧ win0_0.index t 1 = 0)
theorem idx1_facts : ∀ t : Fin cfg0.N, win0_1.index t 0 = t.val ∧ win0_1.index t 1 = 0 :=
  (by decide +kernel : ∀ t : Fin grid0.N, win0_1.index t 0 = t.val ∧ win0_1.index t 1 = 0)

/-- Entry (a, j) of the weights' block at point t is entry (256 t + a, j) of the weights. -/
theorem gblk_apply (c : Dev nD) (t : Fin cfg0.N) (a : Fin 256) (j : Fin 8192) :
    gblk m c t (ix2 a j) = Gm m c (GraphLoss.row ⟨t.val, lt_of_lt_of_eq t.isLt N_0⟩ a) j := by
  have hi := idx0_facts t
  show iblk m c 0 t (ix2 a j) = _
  unfold iblk
  rw [View.read_apply]
  show V m c main_arg0 _ = V m c main_arg0 _
  congr 1
  funext b
  apply Fin.ext
  match b with
  | ⟨0, _⟩ => show win0_0.index t 0 * 256 + 1 * a.val = 256 * t.val + a.val; rw [hi.1]; omega
  | ⟨1, _⟩ => show win0_0.index t 1 * 8192 + 1 * j.val = j.val; rw [hi.2]; omega

/-- Entry (a, d) of the row features' block at point t is entry (256 t + a, d) of the row features. -/
theorem xblk_apply (c : Dev nD) (t : Fin cfg0.N) (a : Fin 256) (d : Fin 128) :
    xblk m c t (ix2 a d) = Xm m c (GraphLoss.row ⟨t.val, lt_of_lt_of_eq t.isLt N_0⟩ a) d := by
  have hi := idx1_facts t
  show iblk m c 1 t (ix2 a d) = _
  unfold iblk
  rw [View.read_apply]
  show V m c main_arg1 _ = V m c main_arg1 _
  congr 1
  funext b
  apply Fin.ext
  match b with
  | ⟨0, _⟩ => show win0_1.index t 0 * 256 + 1 * a.val = 256 * t.val + a.val; rw [hi.1]; omega
  | ⟨1, _⟩ => show win0_1.index t 1 * 128 + 1 * d.val = d.val; rw [hi.2]; omega

/-- So the contribution formed from the blocks at point t is tile t of the whole matrices. -/
theorem tile_eq (c : Dev nD) (t : Fin cfg0.N) :
    GraphLoss.tileOf (fun a j => gblk m c t (ix2 a j)) (fun a d => xblk m c t (ix2 a d)) (fun j d => yarr m c (ix2 j d)) twoW
      = GraphLoss.tile (Gm m c) (Xm m c) (Ym m c) twoW ⟨t.val, lt_of_lt_of_eq t.isLt N_0⟩ := by
  have eg : (fun (a : Fin 256) (j : Fin 8192) => gblk m c t (ix2 a j))
      = fun a j => Gm m c (GraphLoss.row ⟨t.val, lt_of_lt_of_eq t.isLt N_0⟩ a) j :=
    funext fun a => funext fun j => gblk_apply m c t a j
  have ex : (fun (a : Fin 256) (d : Fin 128) => xblk m c t (ix2 a d))
      = fun a d => Xm m c (GraphLoss.row ⟨t.val, lt_of_lt_of_eq t.isLt N_0⟩ a) d :=
    funext fun a => funext fun d => xblk_apply m c t a d
  unfold GraphLoss.tile
  exact (congrArg (fun g => GraphLoss.tileOf g _ _ twoW) eg).trans (congrArg (fun x => GraphLoss.tileOf _ x _ twoW) ex)

/-- The accumulator after grid point n is the running sum of the tiles of its half up to n. -/
theorem lossAt_apply (c : Dev nD) : ∀ (n : ℕ) (h : n < cfg0.N),
    lossAt m c n h z11 = GraphLoss.accAt (Gm m c) (Xm m c) (Ym m c) twoW n (lt_of_lt_of_eq h N_0)
  | 0, h => by
    show k0_pay1 (k0_pay5 (gblk m c ⟨0, h⟩) (xblk m c ⟨0, h⟩) (yarr m c) (k0_pay3 (yarr m c)) (k0_pay4 (F := Ideal))) z11 = _
    rw [pay1_eq, pay5_apply, pay4_apply, zero_add]
    exact tile_eq m c ⟨0, h⟩
  | n + 1, h => by
    by_cases h0 : (n + 1) % 8 = 0
    · rw [lossAt_reset m c n h h0, pay1_eq, pay5_apply, pay4_apply, zero_add, GraphLoss.accAt, if_pos h0]
      exact tile_eq m c ⟨n + 1, h⟩
    · rw [lossAt_step m c n h h0, pay1_eq, pay5_apply, lossAt_apply c n (Nat.lt_of_succ_lt h), GraphLoss.accAt, if_neg h0]
      exact congrArg (_ + ·) (tile_eq m c ⟨n + 1, h⟩)

/-- Entry (p, a, b) of the output array is the running sum of half p after its last tile. -/
theorem outArr_apply (c : Dev nD) (p : Fin 2) (a : Fin 8) (b : Fin 128) :
    outArr m c (ix3 p a b) = GraphLoss.accAt (Gm m c) (Xm m c) (Ym m c) twoW (8 * p.val + 7) (by have := p.isLt; omega) := by
  have hN : cfg0.N = 16 := N_0
  have hp : 8 * p.val + 7 < cfg0.N := by have := p.isLt; omega
  show k0_pay2 (lossAt m c (8 * p.val + 7) hp) (ix3 (0 : Fin 1) a b) = _
  rw [pay2_apply, lossAt_apply]

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's total of a 2 × 8 × 128 array from zero is the sum of its entries. -/
theorem total_apply (o : Vec Ideal S2x8x128 .f32) (i : S_.Idx) :
    Host.reduceAdd o (constant (F := Ideal) S_ .f32 0x00000000#32) reducesTo_S2x8x128_S_d0_1_2 h_S_ i = ∑ j : S2x8x128.Idx, o j := by
  simp only [Host.reduceAdd, Ideal.hostReduceAdd_def]
  rw [Ideal.hostReduceAdd_total reducesTo_S2x8x128_S_d0_1_2 (fun b => b.elim0) o _ i]
  show Ideal.ofBits .f32 0x00000000#32 + _ = _
  rw [Ideal.ofBits_zero_f32, zero_add]

/-- The kernel's result: the two halves' sums, each counted 8 · 128 times, over the word 1024.0, over the word 2²⁵. -/
theorem result_apply (c : Dev nD) (i : S_.Idx) :
    tail (outArr m c) i
      = Ideal.div (Ideal.div (∑ p : Fin 2, ∑ _a : Fin 8, ∑ _b : Fin 128,
            GraphLoss.accAt (Gm m c) (Xm m c) (Ym m c) twoW (8 * p.val + 7) (by have := p.isLt; omega))
          (Ideal.ofBits .f32 0x44800000#32)) (Ideal.ofBits .f32 0x4C000000#32) := by
  show Ideal.div (Ideal.div (Host.reduceAdd (outArr m c) (constant (F := Ideal) S_ .f32 0x00000000#32) reducesTo_S2x8x128_S_d0_1_2 h_S_ i) _) _ = _
  rw [total_apply, sum_idx3]
  simp only [outArr_apply]
  rfl

end Cert.KernelIdeal.LossValue

end
-- ==== Proof.RefSide.lean ====
/-
  The reference's result at the ideal instance is its numerator (Proof/Spec.lean `refNum`) of the three arrays' entries,
  divided by the constant 2²⁵ it spells; and what the precondition gives: every entry of the three inputs is a real number.
-/
import proofs.«160321_j30631706755178_1_alg».proof.Proof.Gen.ReferenceIdeal.Run
import proofs.«160321_j30631706755178_1_alg».proof.Proof.Gen.ReferenceIdeal.Read
import proofs.«160321_j30631706755178_1_alg».proof.Proof.Gen.Pre_finite_inputs
import proofs.«160321_j30631706755178_1_alg».proof.Proof.Spec
import Idealize.ShloMosaic.Lib.ValueIdx
import Idealize.ShloMosaic.Lib.ValueIdxRank1
import Idealize.ShloMosaic.Lib.ReduceAll
import Idealize.ShloMosaic.PureOps.Ideal.Laws

noncomputable section

open scoped BigOperators
open Idealize.ShloMosaic Idealize.ShloMosaic.ValueIdx

namespace Cert.ReferenceIdeal.RefSide

open Cert.ReferenceIdeal Cert.ReferenceIdeal.Gen

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! The index each reduction and the contraction reads its operand at, by coordinates. -/

private theorem idx_v0 (i : Fin 4096) (k : Fin 8192) : Read.idx_main_v0 (ix1 i) k = ix2 i k :=
  funext fun a => Fin.ext (by match a with | ⟨0, _⟩ => rfl | ⟨1, _⟩ => rfl)
private theorem idx_v1 (j : Fin 8192) (k : Fin 4096) : Read.idx_main_v1 (ix1 j) k = ix2 k j :=
  funext fun a => Fin.ext (by match a with | ⟨0, _⟩ => rfl | ⟨1, _⟩ => rfl)
private theorem idx_v3 (i : Fin 4096) (k : Fin 128) : Read.idx_main_v3 (ix1 i) k = ix2 i k :=
  funext fun a => Fin.ext (by match a with | ⟨0, _⟩ => rfl | ⟨1, _⟩ => rfl)
private theorem idx_v7 (j : Fin 8192) (k : Fin 128) : Read.idx_main_v7 (ix1 j) k = ix2 j k :=
  funext fun a => Fin.ext (by match a with | ⟨0, _⟩ => rfl | ⟨1, _⟩ => rfl)
private theorem lidx_v10 (i : Fin 4096) (d : Fin 128) (k : Fin 8192) : Read.lidx_main_v10 (ix2 i d) k = ix2 i k :=
  funext fun a => Fin.ext (by match a with | ⟨0, _⟩ => rfl | ⟨1, _⟩ => rfl)
private theorem ridx_v10 (i : Fin 4096) (d : Fin 128) (k : Fin 8192) : Read.ridx_main_v10 (ix2 i d) k = ix2 k d :=
  funext fun a => Fin.ext (by match a with | ⟨0, _⟩ => rfl | ⟨1, _⟩ => rfl)

/-- The zero each sum starts from. -/
private theorem zero_word : (FloatOps.ofBits .f32 0x00000000#32 : Ideal .f32) = 0 := by
  rw [Ideal.ofBits_def, Ideal.ofBits_zero_f32]

/-- Row `i`'s sum of `G`. -/
private theorem v0_at (x0 : (⟨S4096x8192, .f32⟩ : BufTy).Contents (Elt Ideal)) (i : Fin 4096) :
    Read.val_main_v0 (F := Ideal) x0 (ix1 i) = ∑ j : Fin 8192, x0 (ix2 i j) := by
  rw [Read.val_main_v0_apply, Read.val_main_cst_apply, zero_word, zero_add]
  exact Finset.sum_congr rfl fun k _ => by rw [idx_v0]

/-- Column `j`'s sum of `G`. -/
private theorem v1_at (x0 : (⟨S4096x8192, .f32⟩ : BufTy).Contents (Elt Ideal)) (j : Fin 8192) :
    Read.val_main_v1 (F := Ideal) x0 (ix1 j) = ∑ i : Fin 4096, x0 (ix2 i j) := by
  rw [Read.val_main_v1_apply, Read.val_main_cst_0_apply, zero_word, zero_add]
  exact Finset.sum_congr rfl fun k _ => by rw [idx_v1]

/-- The squared norm of row `i` of `X`. -/
private theorem v3_at (x1 : (⟨S4096x128, .f32⟩ : BufTy).Contents (Elt Ideal)) (i : Fin 4096) :
    Read.val_main_v3 (F := Ideal) x1 (ix1 i) = ∑ d : Fin 128, x1 (ix2 i d) * x1 (ix2 i d) := by
  rw [Read.val_main_v3_apply, Read.val_main_cst_1_apply, zero_word, zero_add]
  exact Finset.sum_congr rfl fun k _ => by rw [Read.val_main_v2_apply, idx_v3, Ideal.mulf_def]

/-- The squared norm of row `j` of `Y`. -/
private theorem v7_at (x2 : (⟨S8192x128, .f32⟩ : BufTy).Contents (Elt Ideal)) (j : Fin 8192) :
    Read.val_main_v7 (F := Ideal) x2 (ix1 j) = ∑ d : Fin 128, x2 (ix2 j d) * x2 (ix2 j d) := by
  rw [Read.val_main_v7_apply, Read.val_main_cst_3_apply, zero_word, zero_add]
  exact Finset.sum_congr rfl fun k _ => by rw [Read.val_main_v6_apply, idx_v7, Ideal.mulf_def]

/-- Entry `(i, d)` of `G Y`. -/
private theorem v10_at (x0 : (⟨S4096x8192, .f32⟩ : BufTy).Contents (Elt Ideal))
    (x2 : (⟨S8192x128, .f32⟩ : BufTy).Contents (Elt Ideal)) (i : Fin 4096) (d : Fin 128) :
    Read.val_main_v10 (F := Ideal) x0 x2 (ix2 i d) = ∑ j : Fin 8192, x0 (ix2 i j) * x2 (ix2 j d) := by
  rw [Read.val_main_v10_apply]
  exact Finset.sum_congr rfl fun k _ => by rw [lidx_v10, ridx_v10]

/-- The reference's result, read: the numerator over 2²⁵ (the divisor's word is never evaluated). -/
theorem ref_apply (x0 : (⟨S4096x8192, .f32⟩ : BufTy).Contents (Elt Ideal)) (x1 : (⟨S4096x128, .f32⟩ : BufTy).Contents (Elt Ideal))
    (x2 : (⟨S8192x128, .f32⟩ : BufTy).Contents (Elt Ideal)) (i : S_.Idx) :
    Read.val_main_v16 (F := Ideal) x0 x1 x2 i
      = Ideal.div (GraphLoss.refNum (fun i j => x0 (ix2 i j)) (fun i d => x1 (ix2 i d)) (fun j d => x2 (ix2 j d))
          (Ideal.ofBits .f32 0x40000000#32)) (Ideal.ofBits .f32 0x4C000000#32) := by
  have hA : ∑ j : S4096.Idx, Read.val_main_v4 (F := Ideal) x0 x1 j
      = ∑ i : Fin 4096, (∑ j : Fin 8192, x0 (ix2 i j)) * (∑ d : Fin 128, x1 (ix2 i d) * x1 (ix2 i d)) := by
    rw [sum_idx1]
    exact Finset.sum_congr rfl fun a _ => by rw [Read.val_main_v4_apply, v0_at, v3_at, Ideal.mulf_def]
  have hB : ∑ j : S8192.Idx, Read.val_main_v8 (F := Ideal) x0 x2 j
      = ∑ j : Fin 8192, (∑ i : Fin 4096, x0 (ix2 i j)) * (∑ d : Fin 128, x2 (ix2 j d) * x2 (ix2 j d)) := by
    rw [sum_idx1]
    exact Finset.sum_congr rfl fun a _ => by rw [Read.val_main_v8_apply, v1_at, v7_at, Ideal.mulf_def]
  have hC : ∑ j : S4096x128.Idx, Read.val_main_v11 (F := Ideal) x0 x1 x2 j
      = ∑ i : Fin 4096, ∑ d : Fin 128, x1 (ix2 i d) * (∑ j : Fin 8192, x0 (ix2 i j) * x2 (ix2 j d)) := by
    rw [sum_idx2]
    exact Finset.sum_congr rfl fun a _ => Finset.sum_congr rfl fun b _ => by
      rw [Read.val_main_v11_apply, v10_at, Ideal.mulf_def]
  rw [Read.val_main_v16_apply, Read.val_main_v15_apply, Read.val_main_v13_apply, Read.val_main_v14_apply,
    Read.val_main_v5_apply, Read.val_main_v9_apply, Read.val_main_v12_apply, Read.val_main_cst_6_apply,
    Read.val_main_cst_7_apply, Read.val_main_cst_2_apply, Read.val_main_cst_4_apply, Read.val_main_cst_5_apply,
    zero_word, zero_add, zero_add, zero_add, hA, hB, hC,
    Ideal.hostDivf_def, Ideal.subf_def, Ideal.addf_def, Ideal.mulf_def, Ideal.ofBits_def, Ideal.ofBits_def]
  rfl

end Cert.ReferenceIdeal.RefSide

namespace Cert.Finite

/-- The word `0x7F800000` denotes `+∞`. -/
private theorem ofBits_inf : Ideal.ofBits .f32 0x7F800000#32 = (⊤ : EReal) := by
  simp [Ideal.ofBits, Ideal.ieee]

/-- An extended real whose absolute value `max a (-a)` is below `+∞` is a real number. -/
private theorem real_of_abs_lt (a : Ideal .f32)
    (h : FloatOps.cmpf .olt (FloatOps.hostAbsf a) (FloatOps.ofBits .f32 0x7F800000#32 : Ideal .f32) = 1#1) :
    ∃ r : ℝ, a = (r : EReal) := by
  have h' : Ideal.cmp .olt (max a (-a)) (Ideal.ofBits .f32 0x7F800000#32) = 1#1 := h
  rw [ofBits_inf] at h'
  have hlt : max a (-a) < (⊤ : EReal) := by
    by_contra hn
    simp [Ideal.cmp, hn] at h'
  induction a using EReal.rec with
  | bot => simp at hlt
  | top => simp at hlt
  | coe r => exact ⟨r, rfl⟩

/-- Under the precondition (every `|entry| < +∞`), every entry of the three inputs is a real number. -/
theorem entries_real [Cert.Pre_finite_inputs.Facts] (g : FVec Ideal Cert.Pre_finite_inputs.S4096x8192 .f32)
    (x : FVec Ideal Cert.Pre_finite_inputs.S4096x128 .f32) (y : FVec Ideal Cert.Pre_finite_inputs.S8192x128 .f32)
    (h : Cert.Pre_finite_inputs.fn (F := Ideal) g x y = fun _ => 1#1) :
    (∀ i, ∃ r : ℝ, g i = (r : EReal)) ∧ (∀ i, ∃ r : ℝ, x i = (r : EReal)) ∧ (∀ i, ∃ r : ℝ, y i = (r : EReal)) := by
  have e := congrFun h ValueIdx.ix0
  dsimp only [Cert.Pre_finite_inputs.fn] at e
  haveI : Subsingleton Cert.Pre_finite_inputs.S_.Idx := ⟨fun a b => funext fun d => d.elim0⟩
  obtain ⟨e12, e3⟩ := IntOp.andi_eq_one.1 e
  obtain ⟨e1, e2⟩ := IntOp.andi_eq_one.1 e12
  refine ⟨fun i => ?_, fun i => ?_, fun i => ?_⟩
  · exact real_of_abs_lt _ (Host.reduce_andi_all _ _ _ _ _ e1 i)
  · exact real_of_abs_lt _ (Host.reduce_andi_all _ _ _ _ _ e2 i)
  · exact real_of_abs_lt _ (Host.reduce_andi_all _ _ _ _ _ e3 i)

/-- The word `0x40000000` (2.0) denotes a real number. -/
theorem two_real : ∃ r : ℝ, Ideal.ofBits .f32 0x40000000#32 = (r : EReal) := by
  refine ⟨2, ?_⟩
  simp [Ideal.ofBits, Ideal.ieee, -EReal.coe_mul]; norm_num

/-- The word `0x44800000` denotes 1024. -/
theorem ofBits_1024 : Ideal.ofBits .f32 0x44800000#32 = ((1024 : ℝ) : EReal) := by
  simp [Ideal.ofBits, Ideal.ieee, -EReal.coe_mul]; norm_num

end Cert.Finite

end
-- ==== Proof.lean ====
/-
  The graph-smoothness loss  (∑ᵢ degᵢ·‖Xᵢ‖² + ∑ⱼ degⱼ·‖Yⱼ‖² − 2·∑ᵢ Xᵢ·(G Y)ᵢ) / (m·n)  of a 4096 × 8192 weight matrix G with
  row features X and column features Y: a tiled kernel against the plain formula.

  The kernel never forms a column degree: over each tile of 256 rows it sums deg(a)·‖Xₐ‖², ∑ⱼ Gₐⱼ·‖Yⱼ‖² and Xₐ·(G Y)ₐ,
  combines them as (t₀ + t₁) − 2·cross, and adds the result to a running sum kept per half of the rows (8 tiles each);
  each half's sum is spread over an 8 × 128 tile of the output, and the host adds all 2·8·128 entries, divides by 1024
  and by m·n = 2²⁵. The reference sums over all rows and all columns at once and divides by 2²⁵.

  At the ideal instance both are the same real number as soon as every entry is finite, which is the precondition:
  the middle term is ∑ⱼ (∑ᵢ Gᵢⱼ)·‖Yⱼ‖² = ∑ᵢ∑ⱼ Gᵢⱼ·‖Yⱼ‖² (distributivity, then exchanging the sums), the factor 2
  distributes over the sum of the tiles' cross terms, the rows split as 16 tiles of 256, and 1024 copies of a number over
  1024 are the number (Proof/SpecLaw.lean). Distributivity fails at the infinities, so finiteness is used; the word
  for 2²⁵ is the same on both sides and is never evaluated, and of the word for 2.0 only that it denotes a real number
  is used.

  The modules: Proof/Spec.lean (the formulas), Proof/SpecLaw.lean (the law), Proof/KernelRead.lean (what the kernel's
  run leaves, by induction over the grid points), Proof/TileValue.lean (a step's arithmetic), Proof/KernelValue.lean (the
  kernel's result as the formula), Proof/RefSide.lean (the reference's result as the formula; the entries are real).
  The bit-level kernel enters only through its frame; the ideal pass rewrote nothing, so `preserves` is trivial.
-/
import proofs.«160321_j30631706755178_1_alg».proof.Defs
import proofs.«160321_j30631706755178_1_alg».proof.Proof.Gen.Kernel
import proofs.«160321_j30631706755178_1_alg».proof.Proof.Gen.Kernel.Frame
import proofs.«160321_j30631706755178_1_alg».proof.Proof.Gen.KernelIdeal
import proofs.«160321_j30631706755178_1_alg».proof.Proof.Gen.KernelIdeal.Frame
import proofs.«160321_j30631706755178_1_alg».proof.Proof.Gen.ReferenceIdeal
import proofs.«160321_j30631706755178_1_alg».proof.Proof.Gen.ReferenceIdeal.Run
import proofs.«160321_j30631706755178_1_alg».proof.Proof.Gen.ReferenceIdeal.Read
import proofs.«160321_j30631706755178_1_alg».proof.Proof.Gen.Pre_finite_inputs
import proofs.«160321_j30631706755178_1_alg».proof.Proof.SpecLaw
import proofs.«160321_j30631706755178_1_alg».proof.Proof.KernelValue
import proofs.«160321_j30631706755178_1_alg».proof.Proof.RefSide

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss: the kernel at (halves' sums · 1024 / 1024) / 2²⁵, the reference at numerator / 2²⁵,
    and under the precondition the two numerators are one real number. -/
theorem algebraic : Cert.algebraic_KernelIdeal_ReferenceIdeal := by
  intro m ρ m' ρ' hpre hagree
  refine ⟨fun c => Cert.KernelIdeal.Read.tail (Cert.KernelIdeal.Read.outArr m c),
    Cert.KernelIdeal.Read.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v16_eq]
  funext i
  obtain ⟨hg, hx, hy⟩ := Cert.Finite.entries_real _ _ _ (hpre c)
  rw [Cert.ReferenceIdeal.RefSide.ref_apply]
  refine Eq.trans ?_ (Cert.KernelIdeal.LossValue.result_apply m c i).symm
  rw [Cert.Finite.ofBits_1024, Ideal.div_coe (by norm_num : (1024 : ℝ) ≠ 0)]
  refine congrArg (Ideal.div · _) ?_
  exact (GraphLoss.halves_eq_refNum (Cert.KernelIdeal.LossValue.Gm m c) (Cert.KernelIdeal.LossValue.Xm m c)
    (Cert.KernelIdeal.LossValue.Ym m c) Cert.KernelIdeal.LossValue.twoW (fun i j => hg _) (fun i d => hx _) (fun j d => hy _)
    Cert.Finite.two_real).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
